-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x1 .f32) (main_arg5 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x512 : Shape := ⟨2, ![2000, 512]⟩
abbrev S2000x64 : Shape := ⟨2, ![2000, 64]⟩
abbrev S1700000x64 : Shape := ⟨2, ![1700000, 64]⟩
abbrev S1x64 : Shape := ⟨2, ![1, 64]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 96
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x1, .f32⟩
  | .local _ .vmem, ⟨8, _⟩ => ⟨S2000x1, .f32⟩
  | .local _ .vmem, ⟨9, _⟩ => ⟨S2000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x1_S64x1_0_0 : ∀ a, (![0, 0] : Fin 2 → Nat) a + S64x1.size a ≤ S64x1.size a
  h_S64x1 : 0 < S64x1.numel
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x64_S2000x64_1_0_0_1_n_n_wf : DotDims.WF S2000x512 S512x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«128480_j58798102282556_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«128480_j58798102282556_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Layer1Blocks.lean ====
/-
  Layer 1's dense product, block by block: what the first kernel region leaves in its output array.

  The region runs over 50 grid points. At point `t` it stages rows `2000·t … 2000·t + 1999` of the `[100000, 512]`
  input, the whole `[512, 64]` weight, multiplies them into a zero accumulator (the operands first narrowed to
  bf16, which on the extended reals changes nothing) and writes the `[2000, 64]` product back as rows
  `2000·t … 2000·t + 1999` of the output. Entry `(r, q)` of a product depends on the left operand only through its
  row `r`, so the block written at point `t` is the restriction to those rows of ONE function of the whole arrays,
  the product `prodArr x w = fun (r, q) => ∑ k, x (r, k) · w (k, q)`; the 50 blocks tile the output (row `r` lies in
  block `r / 2000`), so after the region the output array IS that product. Everything is stated at the contents `V`
  the region is entered with, whatever they are.
-/
import proofs.«128480_j58798102282556_1_alg».proof.Proof.Gen.KernelIdeal.Frame
import proofs.«128480_j58798102282556_1_alg».proof.Proof.LibPlainDot
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

/-- The whole product `x · w` as an array: at `(r, q)` the sum over `k` of `x (r, k) · w (k, q)`. -/
def prodArr (x : Mat 100000 512) (w : Mat 512 64) : Mat 100000 64 := fun i => prodRow x w (i 0) (i 1)

theorem origin : (![0, 0] : Fin 2 → Nat) = fun _ => 0 := funext fun a => by fin_cases a <;> rfl

/-- The block product's dimension numbers are a plain product's. -/
theorem block_dot : PlainDot dot_S2000x512_S512x64_S2000x64_1_0_0_1_n_n :=
  plainDot_of_axes _ rfl rfl rfl rfl rfl rfl

/-- The body's stored value at `(r, q)` of the block: row `r` of the staged rows times column `q` of the weight. -/
theorem payload_apply (x0 : Vec Ideal S2000x512 .f32) (x1 : Vec Ideal S512x64 .f32) (j : S2000x64.Idx) :
    k0_pay1 x0 x1 j = prodRow x0 x1 (j 0) (j 1) := by
  unfold k0_pay1
  exact matmul_zero_apply block_dot none _ _ j

/-- A block whose rows are rows `2000·n + r` of `X`, against a weight block that is all of `W`, gives rows
    `2000·n + r` of the whole product. -/
theorem payload_of_rows (X : Mat 100000 512) (W : Mat 512 64) (x0 : Vec Ideal S2000x512 .f32) (x1 : Vec Ideal S512x64 .f32)
    (j : S2000x64.Idx) (R : Fin 100000)
    (h0 : ∀ k : Fin 512, x0 (ix2 (j 0) k) = X (ix2 R k)) (h1 : ∀ (k : Fin 512) (q : Fin 64), x1 (ix2 k q) = W (ix2 k q)) :
    k0_pay1 x0 x1 j = prodRow X W R (j 1) := by
  rw [payload_apply]
  unfold prodRow
  exact Finset.sum_congr rfl fun k _ => by rw [h0 k, h1 k (j 1)]

/-- The printed index maps over the grid: the input's and the output's blocks sit at row block `t`, the weight's at
    the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem grid_points : cfg0.N = 50 := N_0

variable (V : (c : Dev nD) → (b : Ref sig .tc) → Buf (Elt Ideal) ((c : Thread nD τ).loc b))

/-- What point `t` writes back is block `t` of the whole product of the arrays as the region finds them. -/
theorem flushed_eq (c : Dev nD) (t : Fin cfg0.N) :
    (dat0 V c).flushed 2 t = ((cfg0.win 2).blk t).view.read (Elt Ideal) (prodArr (V c main_arg0) (V c main_arg2)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x64) origin]
  obtain ⟨e0, e1, e2, e3, e4, e5⟩ := idx_facts t
  have ht : t.val < 50 := grid_points ▸ t.isLt
  funext j
  have hj0 : (j 0).val < 2000 := (j 0).isLt
  have hj1 : (j 1).val < 64 := (j 1).isLt
  refine (payload_of_rows (V c main_arg0) (V c main_arg2) (iblk0 V c 0 t) (iblk0 V c 1 t) j
    ⟨t.val * 2000 + (j 0).val, by omega⟩ (fun k => ?_) (fun k q => ?_)).trans ?_
  · show V c main_arg0 (((cfg0.win 0).blk t).view.emb (ix2 (j 0) k)) = _
    refine congrArg _ ?_
    funext a; apply Fin.ext
    match a with
    | ⟨0, _⟩ => show win0_0.index t (0 : Fin 2) * 2000 + 1 * (j 0).val = t.val * 2000 + (j 0).val; omega
    | ⟨1, _⟩ => show win0_0.index t (1 : Fin 2) * 512 + 1 * k.val = k.val; omega
  · show V c main_arg2 (((cfg0.win 1).blk t).view.emb (ix2 k q)) = _
    refine congrArg _ ?_
    funext a; apply Fin.ext
    match a with
    | ⟨0, _⟩ => show win0_1.index t (0 : Fin 2) * 512 + 1 * k.val = k.val; omega
    | ⟨1, _⟩ => show win0_1.index t (1 : Fin 2) * 64 + 1 * q.val = q.val; omega
  · show _ = prodRow (V c main_arg0) (V c main_arg2) ((((cfg0.win 2).blk t).view.emb j) 0) ((((cfg0.win 2).blk t).view.emb j) 1)
    have r0 : (((cfg0.win 2).blk t).view.emb j) 0 = (⟨t.val * 2000 + (j 0).val, by omega⟩ : Fin 100000) := Fin.ext (by
      show win0_2.index t (0 : Fin 2) * 2000 + 1 * (j 0).val = t.val * 2000 + (j 0).val; omega)
    have r1 : (((cfg0.win 2).blk t).view.emb j) 1 = j 1 := Fin.ext (by
      show win0_2.index t (1 : Fin 2) * 64 + 1 * (j 1).val = (j 1).val; omega)
    rw [r0, r1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Row `r` of the output lies in the block of point `r / 2000`: the blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, grid_points ▸ (by omega : (i 0).val / 2000 < 50)⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region its output array holds the whole product of the two input arrays as the region found them. -/
theorem final (c : Dev nD) : (dat0 V c).arrAt 2 cfg0.N = prodArr (V c main_arg0) (V c main_arg2) :=
  (dat0 V c).arrAt_eq_of_cover 2 _ (fun t _ => flushed_eq V c t) cover

end Cert.KernelIdeal.Layer1

end
-- ==== Proof.Layer2Blocks.lean ====
/-
  Layer 2's dense product, block by block: what the second kernel region leaves in its output array.

  The second region multiplies the `[100000, 64]` hidden activations by the `[64, 1]` weight. At grid point `t` of
  its 50 it stages rows `2000·t … 2000·t + 1999` of the activations and the whole weight, multiplies them into a
  zero accumulator (the staged rows first passed through a cast to their own shape, then both operands narrowed to
  bf16: neither changes a value on the extended reals) and writes the `[2000, 1]` column back as rows
  `2000·t … 2000·t + 1999` of the output. As in layer 1, entry `(r, 0)` of a product reads the left operand along
  row `r` only, so each written block is the restriction of the one whole product
  `prodArr h w = fun (r, q) => ∑ k, h (r, k) · w (k, q)`, and the 50 blocks tile the output: after the region the
  output array is that product of the arrays the region was entered with.
-/
import proofs.«128480_j58798102282556_1_alg».proof.Proof.Gen.KernelIdeal.Frame
import proofs.«128480_j58798102282556_1_alg».proof.Proof.LibPlainDot
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

/-- The whole product `h · w` as an array: at `(r, q)` the sum over `k` of `h (r, k) · w (k, q)`. -/
def prodArr (h : Mat 100000 64) (w : Mat 64 1) : Mat 100000 1 := fun i => prodRow h w (i 0) (i 1)

theorem origin : (![0, 0] : Fin 2 → Nat) = fun _ => 0 := funext fun a => by fin_cases a <;> rfl

/-- The block product's dimension numbers are a plain product's. -/
theorem block_dot : PlainDot dot_S2000x64_S64x1_S2000x1_1_0_0_1_n_n :=
  plainDot_of_axes _ rfl rfl rfl rfl rfl rfl

/-- The body's stored value at `(r, q)` of the block: row `r` of the staged rows times column `q` of the weight;
    the cast of the staged rows to their own shape is the identity. -/
theorem payload_apply (x0 : Vec Ideal S2000x64 .f32) (x1 : Vec Ideal S64x1 .f32) (j : S2000x1.Idx) :
    k1_pay1 x0 x1 j = prodRow x0 x1 (j 0) (j 1) := by
  unfold k1_pay1
  refine (matmul_zero_apply block_dot none _ _ j).trans ?_
  rw [shapeCast_self]
  rfl

/-- A block whose row `j 0` is row `R` of `X`, against a weight block that is all of `W`, gives row `R` of the
    whole product. -/
theorem payload_of_rows (X : Mat 100000 64) (W : Mat 64 1) (x0 : Vec Ideal S2000x64 .f32) (x1 : Vec Ideal S64x1 .f32)
    (j : S2000x1.Idx) (R : Fin 100000)
    (h0 : ∀ k : Fin 64, x0 (ix2 (j 0) k) = X (ix2 R k)) (h1 : ∀ (k : Fin 64) (q : Fin 1), x1 (ix2 k q) = W (ix2 k q)) :
    k1_pay1 x0 x1 j = prodRow X W R (j 1) := by
  rw [payload_apply]
  unfold prodRow
  exact Finset.sum_congr rfl fun k _ => by rw [h0 k, h1 k (j 1)]

/-- The printed index maps over the grid: the activations' and the output's blocks sit at row block `t`, the
    weight's at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem grid_points : cfg1.N = 50 := N_1

variable (V : (c : Dev nD) → (b : Ref sig .tc) → Buf (Elt Ideal) ((c : Thread nD τ).loc b))

/-- What point `t` writes back is block `t` of the whole product of the arrays as the region finds them. -/
theorem flushed_eq (c : Dev nD) (t : Fin cfg1.N) :
    (dat1 V c).flushed 2 t = ((cfg1.win 2).blk t).view.read (Elt Ideal) (prodArr (V c main_v47) (V c main_arg4)) := by
  show (cfg1.win 2).cut (grid1.coords t) ((dat1 V c).after 2 t) = _
  rw [after1_2]
  unfold out1_2
  rw [View.canon_unit_zero origin]
  simp only [View.ld_unit_zero (S := S2000x64) origin, View.ld_unit_zero (S := S64x1) origin]
  obtain ⟨e0, e1, e2, e3, e4, e5⟩ := idx_facts t
  have ht : t.val < 50 := grid_points ▸ t.isLt
  funext j
  have hj0 : (j 0).val < 2000 := (j 0).isLt
  have hj1 : (j 1).val < 1 := (j 1).isLt
  refine (payload_of_rows (V c main_v47) (V c main_arg4) (iblk1 V c 0 t) (iblk1 V c 1 t) j
    ⟨t.val * 2000 + (j 0).val, by omega⟩ (fun k => ?_) (fun k q => ?_)).trans ?_
  · show V c main_v47 (((cfg1.win 0).blk t).view.emb (ix2 (j 0) k)) = _
    refine congrArg _ ?_
    funext a; apply Fin.ext
    match a with
    | ⟨0, _⟩ => show win1_0.index t (0 : Fin 2) * 2000 + 1 * (j 0).val = t.val * 2000 + (j 0).val; omega
    | ⟨1, _⟩ => show win1_0.index t (1 : Fin 2) * 64 + 1 * k.val = k.val; omega
  · show V c main_arg4 (((cfg1.win 1).blk t).view.emb (ix2 k q)) = _
    refine congrArg _ ?_
    funext a; apply Fin.ext
    match a with
    | ⟨0, _⟩ => show win1_1.index t (0 : Fin 2) * 64 + 1 * k.val = k.val; omega
    | ⟨1, _⟩ => show win1_1.index t (1 : Fin 2) * 1 + 1 * q.val = q.val; omega
  · show _ = prodRow (V c main_v47) (V c main_arg4) ((((cfg1.win 2).blk t).view.emb j) 0) ((((cfg1.win 2).blk t).view.emb j) 1)
    have r0 : (((cfg1.win 2).blk t).view.emb j) 0 = (⟨t.val * 2000 + (j 0).val, by omega⟩ : Fin 100000) := Fin.ext (by
      show win1_2.index t (0 : Fin 2) * 2000 + 1 * (j 0).val = t.val * 2000 + (j 0).val; omega)
    have r1 : (((cfg1.win 2).blk t).view.emb j) 1 = j 1 := Fin.ext (by
      show win1_2.index t (1 : Fin 2) * 1 + 1 * (j 1).val = (j 1).val; omega)
    rw [r0, r1]

/-- An index of the output array is in point `t`'s block iff each coordinate is in the block's range on its axis. -/
theorem mem_blk (t : Fin cfg1.N) (i : S100000x1.Idx) :
    i ∈ ((cfg1.win 2).blk t).view.set ↔ ∀ a : Fin 2, win1_2.index t a * S2000x1.size a ≤ (i a).val ∧ (i a).val < win1_2.index t a * S2000x1.size a + S2000x1.size a := by
  show i ∈ ((View.whole main_v48).slice (win1_2.rect t)).set ↔ _
  rw [View.set_slice_whole, Rect.mem_set_unit]
  exact Iff.rfl

/-- Row `r` of the output lies in the block of point `r / 2000`: the blocks cover the array. -/
theorem cover (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  obtain ⟨t, ht⟩ : ∃ t : Fin cfg1.N, t.val = (i 0).val / 2000 :=
    ⟨⟨(i 0).val / 2000, grid_points ▸ (by omega : (i 0).val / 2000 < 50)⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 1 ≤ (i 1).val ∧ (i 1).val < win1_2.index t (1 : Fin 2) * 1 + 1; omega

/-- After the region its output array holds the whole product of the two input arrays as the region found them. -/
theorem final (c : Dev nD) : (dat1 V c).arrAt 2 cfg1.N = prodArr (V c main_v47) (V c main_arg4) :=
  (dat1 V c).arrAt_eq_of_cover 2 _ (fun t _ => flushed_eq V c t) cover

end Cert.KernelIdeal.Layer2

end
-- ==== Proof.HostLine.lean ====
/-
  The kernel program's whole @main as ONE line of host operations, once each kernel region is known to leave a
  function of its two input arrays in its output array.

  @main is three stretches of host operations around two kernel regions. A region changes the buffers in one way
  only: its output array ends at what its write-backs leave, its input arrays and every other buffer end as they
  were. So if region 0 leaves `f0 x w` in `main_v30` (`x`, `w` the contents of `main_arg0`, `main_arg2` at its
  entry), the buffers at its exit are exactly what the single host operation `main_v30 := f0 main_arg0 main_arg2`
  would have left; the same for region 1 with `main_v48 := f1 main_v47 main_arg4`. The buffers after @main are then
  those after the one line: stretch, operation, stretch, operation, stretch — a fold of pure functions from the
  launch contents, with `f0` and `f1` standing where a host program would have its two products. Stated for every
  float instance and every `f0`, `f1`.
-/
import proofs.«128480_j58798102282556_1_alg».proof.Proof.Gen.KernelIdeal.Frame
import Idealize.ShloMosaic.Lib.StableHlo.Run
import Idealize.ShloMosaic.Lib.Pipeline.Frame

set_option maxRecDepth 16384

noncomputable section

namespace Cert.KernelIdeal.HostLine

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)
variable (f0 : (⟨S100000x512, .f32⟩ : BufTy).Contents (Elt F) → (⟨S512x64, .f32⟩ : BufTy).Contents (Elt F) → (⟨S100000x64, .f32⟩ : BufTy).Contents (Elt F))
variable (f1 : (⟨S100000x64, .f32⟩ : BufTy).Contents (Elt F) → (⟨S64x1, .f32⟩ : BufTy).Contents (Elt F) → (⟨S100000x1, .f32⟩ : BufTy).Contents (Elt F))

/-- Region 0 as a host operation: `main_v30 := f0 main_arg0 main_arg2`. -/
abbrev dense0 : HloOp τ sig (Elt F) := binary main_arg0 main_arg2 main_v30 f0
/-- Region 1 as a host operation: `main_v48 := f1 main_v47 main_arg4`. -/
abbrev dense1 : HloOp τ sig (Elt F) := binary main_v47 main_arg4 main_v48 f1

/-- At region 0's exit the buffers are what the operation `dense0` leaves of the entry contents: the output array
    at `f0` of the two inputs (`h`), the inputs as the pipeline kept them, every other buffer untouched. -/
theorem exit0_eq (c : Dev nD)
    (h : (dat0 (V3 m ρ) c).arrAt 2 cfg0.N = f0 (W3 m ρ c (Proc.devRef .tc main_arg0)) (W3 m ρ c (Proc.devRef .tc main_arg2))) :
    W4 m ρ c = (dense0 f0).result (W3 m ρ c) := by
  funext b
  by_cases hb : b = Proc.devRef .tc main_v30
  · subst hb
    rw [binary_result']
    exact (W4_arr m ρ c 2).trans h
  · rw [HloOp.result_of_not_mem _ _ (by rw [binary_writes]; exact fun hm => hb (Finset.mem_singleton.mp hm))]
    by_cases hex : ∃ w, Proc.devRef (τ := τ) .tc (Pipeline.arrRef spec0 w) = b
    · obtain ⟨w, rfl⟩ := hex
      match w with
      | ⟨0, _⟩ => exact (W4_arr m ρ c 0).trans (((dat0 (V3 m ρ) c).arrAt_in 0 rfl _).trans (A_eq0 (V3 m ρ) c 0))
      | ⟨1, _⟩ => exact (W4_arr m ρ c 1).trans (((dat0 (V3 m ρ) c).arrAt_in 1 rfl _).trans (A_eq0 (V3 m ρ) c 1))
      | ⟨2, _⟩ => exact absurd rfl hb
    · unfold W4 Pipeline.withArrays
      rw [dif_neg hex]

/-- At region 1's exit the buffers are what the operation `dense1` leaves of the entry contents. -/
theorem exit1_eq (c : Dev nD)
    (h : (dat1 (V6 m ρ) c).arrAt 2 cfg1.N = f1 (W6 m ρ c (Proc.devRef .tc main_v47)) (W6 m ρ c (Proc.devRef .tc main_arg4))) :
    W7 m ρ c = (dense1 f1).result (W6 m ρ c) := by
  funext b
  by_cases hb : b = Proc.devRef .tc main_v48
  · subst hb
    rw [binary_result']
    exact (W7_arr m ρ c 2).trans h
  · rw [HloOp.result_of_not_mem _ _ (by rw [binary_writes]; exact fun hm => hb (Finset.mem_singleton.mp hm))]
    by_cases hex : ∃ w, Proc.devRef (τ := τ) .tc (Pipeline.arrRef spec1 w) = b
    · obtain ⟨w, rfl⟩ := hex
      match w with
      | ⟨0, _⟩ => exact (W7_arr m ρ c 0).trans (((dat1 (V6 m ρ) c).arrAt_in 0 rfl _).trans (A_eq1 (V6 m ρ) c 0))
      | ⟨1, _⟩ => exact (W7_arr m ρ c 1).trans (((dat1 (V6 m ρ) c).arrAt_in 1 rfl _).trans (A_eq1 (V6 m ρ) c 1))
      | ⟨2, _⟩ => exact absurd rfl hb
    · unfold W7 Pipeline.withArrays
      rw [dif_neg hex]

/-- @main's host stretches with each region replaced by its operation, in order. -/
abbrev line : List (HloOp τ sig (Elt F)) :=
  hostOps0 ++ (hostOps0_1 ++ (hostOps0_2 ++ (dense0 f0 :: (hostOps1 ++ (hostOps1_1 ++ (dense1 f1 :: hostOps2))))))

/-- The buffers after @main are those the one line leaves of the launch contents. -/
theorem last_eq (c : Dev nD)
    (h0 : (dat0 (V3 m ρ) c).arrAt 2 cfg0.N = f0 (W3 m ρ c (Proc.devRef .tc main_arg0)) (W3 m ρ c (Proc.devRef .tc main_arg2)))
    (h1 : (dat1 (V6 m ρ) c).arrAt 2 cfg1.N = f1 (W6 m ρ c (Proc.devRef .tc main_v47)) (W6 m ρ c (Proc.devRef .tc main_arg4))) :
    W8 m ρ c = after (line f0 f1) (W0 m ρ c) := by
  show after hostOps2 (W7 m ρ c) = _
  rw [exit1_eq m ρ f1 c h1]
  show after hostOps2 ((dense1 f1).result (after hostOps1_1 (after hostOps1 (W4 m ρ c)))) = _
  rw [exit0_eq m ρ f0 c h0]
  unfold line
  rw [after_append hostOps0, after_append hostOps0_1, after_append hostOps0_2, after_cons (dense0 f0), after_append hostOps1,
    after_append hostOps1_1, after_cons (dense1 f1)]

end Cert.KernelIdeal.HostLine

end
-- ==== Proof.Bridge.lean ====
/-
  The kernel program's line of host operations computes the reference's result.

  With each kernel region replaced by the host product it amounts to, the kernel program's @main is, operation for
  operation, the reference's @main: the same slices and concatenations of the edge list, the same degree count,
  inverse square root and edge weights, the same gathers, scatter-adds, bias, clamp at zero and logistic function,
  and in the two places where the reference multiplies (`x · W1` and `h · W2`) the same products. Read back as one
  pure term of the six arguments, the line's result buffer therefore holds the very term the reference's run ends
  with. The statement is for every float instance, the launch contents of the kernel program a variable `W` that
  agrees with the reference's memory on the arguments; the proof reads the line back (the operands of a concatenation,
  which sit inside a dependent pair, by rewriting rather than by simplification) and compares the two terms.
-/
import proofs.«128480_j58798102282556_1_alg».proof.Proof.HostLine
import proofs.«128480_j58798102282556_1_alg».proof.Proof.ReferenceRun

noncomputable section

namespace Cert.Bridge

open Idealize.ShloMosaic Idealize.ShloMosaic.TcCoe Idealize.SL.Sem Idealize.ShloMosaic.StableHlo

variable {F : FTy → Type} [FloatOps F]

/-- Layer 1's product as the reference spells it, on the kernel program's buffers. -/
abbrev prod1 : (⟨Cert.KernelIdeal.S100000x512, .f32⟩ : BufTy).Contents (Elt F) → (⟨Cert.KernelIdeal.S512x64, .f32⟩ : BufTy).Contents (Elt F) → (⟨Cert.KernelIdeal.S100000x64, .f32⟩ : BufTy).Contents (Elt F) :=
  fun l r => Host.dotGeneral Cert.ReferenceIdeal.dot_S100000x512_S512x64_S100000x64_1_0_0_1_n_n none l r
/-- Layer 2's product as the reference spells it, on the kernel program's buffers. -/
abbrev prod2 : (⟨Cert.KernelIdeal.S100000x64, .f32⟩ : BufTy).Contents (Elt F) → (⟨Cert.KernelIdeal.S64x1, .f32⟩ : BufTy).Contents (Elt F) → (⟨Cert.KernelIdeal.S100000x1, .f32⟩ : BufTy).Contents (Elt F) :=
  fun l r => Host.dotGeneral Cert.ReferenceIdeal.dot_S100000x64_S64x1_S100000x1_1_0_0_1_n_n none l r

set_option maxRecDepth 16384 in
set_option maxHeartbeats 40000000 in
/-- The line's result buffer, from contents that agree with the reference's memory on the six arguments, holds the
    reference's composed term. -/
theorem line_eq (W : Valuation Cert.KernelIdeal.τ Cert.KernelIdeal.sig (Elt F))
    (m' : (ℓ : Loc Cert.ReferenceIdeal.nD Cert.ReferenceIdeal.τ Cert.ReferenceIdeal.sig) → Buf (Elt F) ℓ)
    (c : Dev Cert.ReferenceIdeal.nD)
    (a0 : W (Proc.devRef .tc Cert.KernelIdeal.main_arg0) = m' ((c.tc : Thread Cert.ReferenceIdeal.nD Cert.ReferenceIdeal.τ).loc Cert.ReferenceIdeal.main_arg0))
    (a1 : W (Proc.devRef .tc Cert.KernelIdeal.main_arg1) = m' ((c.tc : Thread Cert.ReferenceIdeal.nD Cert.ReferenceIdeal.τ).loc Cert.ReferenceIdeal.main_arg1))
    (a2 : W (Proc.devRef .tc Cert.KernelIdeal.main_arg2) = m' ((c.tc : Thread Cert.ReferenceIdeal.nD Cert.ReferenceIdeal.τ).loc Cert.ReferenceIdeal.main_arg2))
    (a3 : W (Proc.devRef .tc Cert.KernelIdeal.main_arg3) = m' ((c.tc : Thread Cert.ReferenceIdeal.nD Cert.ReferenceIdeal.τ).loc Cert.ReferenceIdeal.main_arg3))
    (a4 : W (Proc.devRef .tc Cert.KernelIdeal.main_arg4) = m' ((c.tc : Thread Cert.ReferenceIdeal.nD Cert.ReferenceIdeal.τ).loc Cert.ReferenceIdeal.main_arg4))
    (a5 : W (Proc.devRef .tc Cert.KernelIdeal.main_arg5) = m' ((c.tc : Thread Cert.ReferenceIdeal.nD Cert.ReferenceIdeal.τ).loc Cert.ReferenceIdeal.main_arg5)) :
    after (Cert.KernelIdeal.HostLine.line (F := F) prod1 prod2) W (Proc.devRef .tc Cert.KernelIdeal.main_v69)
      = Cert.ReferenceIdeal.RunP.res_main_v69 m' c := by
  simp only [Cert.KernelIdeal.HostLine.line, Cert.KernelIdeal.HostLine.dense0, Cert.KernelIdeal.HostLine.dense1,
    Cert.KernelIdeal.Gen.hostOps0, Cert.KernelIdeal.Gen.hostOps0_1, Cert.KernelIdeal.Gen.hostOps0_2,
    Cert.KernelIdeal.Gen.hostOps1, Cert.KernelIdeal.Gen.hostOps1_1, Cert.KernelIdeal.Gen.hostOps2,
    List.cons_append, List.nil_append]
  after_results_simp
  repeat (first
    | rw [reshape_result] | rw [unary_result] | rw [binary_result] | rw [nullary_result] | rw [ternary_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [a0, a1, a2, a3, a4, a5]
  unfold Cert.ReferenceIdeal.RunP.res_main_v69
  rfl

end Cert.Bridge

end
-- ==== Proof.lean ====
/-
  A two-layer graph convolution: the kernel program and its reference compute the same function of the node
  features, the edge list and the two layers' weights and biases, as extended reals.

  Both programs build the same normalised adjacency from the edge list (self loops appended, in-degrees counted,
  the edge weight `deg⁻¹ᐟ²[src] · deg⁻¹ᐟ²[dst]`) and apply the same two layers
  `h ↦ scatter-add over dst of (h · W)[src] · weight, plus the bias`, the first followed by a clamp at zero, the
  second by the logistic function. They differ in one thing: the reference takes the products `x · W1` and `h · W2`
  whole, on the host, while the kernel program takes each in a pipelined kernel, 2000 rows at a time, with the
  operands narrowed to bf16 first. On the extended reals the narrowing is the identity and a block of rows of a
  product is the product of that block of rows, so each kernel region leaves in its output array exactly the
  reference's product of the region's two input arrays (Layer1Blocks, Layer2Blocks). A region touches no other
  buffer, hence the kernel program's buffers evolve as those of one line of host operations in which the two
  products stand where the regions were (HostLine), and that line is, operation for operation, the reference's
  program (Bridge). No law of arithmetic beyond the reindexing of a finite sum is used, and the precondition is
  never opened.

  The three frames are the generated ones (the reference's from its run). The idealization rewrote no operation, so
  `preserves` is `True`.
-/
import proofs.«128480_j58798102282556_1_alg».proof.Defs
import proofs.«128480_j58798102282556_1_alg».proof.Proof.Gen.Kernel
import proofs.«128480_j58798102282556_1_alg».proof.Proof.Gen.Kernel.Skeleton
import proofs.«128480_j58798102282556_1_alg».proof.Proof.Gen.Kernel.Launch
import proofs.«128480_j58798102282556_1_alg».proof.Proof.Gen.Kernel.Points
import proofs.«128480_j58798102282556_1_alg».proof.Proof.Gen.Kernel.Frame
import proofs.«128480_j58798102282556_1_alg».proof.Proof.Gen.KernelIdeal
import proofs.«128480_j58798102282556_1_alg».proof.Proof.Gen.KernelIdeal.Skeleton
import proofs.«128480_j58798102282556_1_alg».proof.Proof.Gen.KernelIdeal.Launch
import proofs.«128480_j58798102282556_1_alg».proof.Proof.Gen.KernelIdeal.Points
import proofs.«128480_j58798102282556_1_alg».proof.Proof.Gen.KernelIdeal.Frame
import proofs.«128480_j58798102282556_1_alg».proof.Proof.Gen.ReferenceIdeal
import proofs.«128480_j58798102282556_1_alg».proof.Proof.Gen.Pre_finite_inputs
import proofs.«128480_j58798102282556_1_alg».proof.Proof.ReferenceRun
import proofs.«128480_j58798102282556_1_alg».proof.Proof.KernelRun
import proofs.«128480_j58798102282556_1_alg».proof.Proof.Layer1Blocks
import proofs.«128480_j58798102282556_1_alg».proof.Proof.Layer2Blocks
import proofs.«128480_j58798102282556_1_alg».proof.Proof.HostLine
import proofs.«128480_j58798102282556_1_alg».proof.Proof.Bridge
import Idealize.ShloMosaic.Adequacy
import Idealize.ShloMosaic.Init

noncomputable section

namespace Cert.Proof

open Idealize.ShloMosaic Idealize.ShloMosaic.TcCoe Idealize.SL.Sem Cert.DenseLayer

/-- The reference's two products have a plain product's dimension numbers. -/
theorem ref_dot1 : PlainDot Cert.ReferenceIdeal.dot_S100000x512_S512x64_S100000x64_1_0_0_1_n_n :=
  plainDot_of_axes _ rfl rfl rfl rfl rfl rfl
theorem ref_dot2 : PlainDot Cert.ReferenceIdeal.dot_S100000x64_S64x1_S100000x1_1_0_0_1_n_n :=
  plainDot_of_axes _ rfl rfl rfl rfl rfl rfl

/-- The host's `x · W1` is the array of row-times-column sums the first region leaves. -/
theorem host_prod1 (x : Mat 100000 512) (w : Mat 512 64) :
    Cert.KernelIdeal.Layer1.prodArr x w = Cert.Bridge.prod1 (F := Ideal) x w :=
  funext fun i => (dotGeneral_apply ref_dot1 none .single x w i).symm

/-- The host's `h · W2` is the array of row-times-column sums the second region leaves. -/
theorem host_prod2 (h : Mat 100000 64) (w : Mat 64 1) :
    Cert.KernelIdeal.Layer2.prodArr h w = Cert.Bridge.prod2 (F := Ideal) h w :=
  funext fun i => (dotGeneral_apply ref_dot2 none .single h w i).symm

/-- The kernel program's result buffer ends at the reference's composed term of arguments that agree. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W8 m ρ c (Proc.devRef .tc Cert.KernelIdeal.main_v69) = Cert.ReferenceIdeal.RunP.res_main_v69 m' c := by
  rw [Cert.KernelIdeal.HostLine.last_eq m ρ Cert.Bridge.prod1 Cert.Bridge.prod2 c
    ((Cert.KernelIdeal.Layer1.final (Cert.KernelIdeal.Gen.V3 m ρ) c).trans (host_prod1 _ _))
    ((Cert.KernelIdeal.Layer2.final (Cert.KernelIdeal.Gen.V6 m ρ) c).trans (host_prod2 _ _))]
  exact Cert.Bridge.line_eq (Cert.KernelIdeal.Gen.W0 m ρ c) m' c a0.symm a1.symm a2.symm a3.symm a4.symm a5.symm

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.RunP.run (F := Ideal) m ρ)
  · intro m ρ m' ρ' _ hagree
    refine ⟨fun c => Cert.ReferenceIdeal.RunP.res_main_v69 m' c, ?_, Cert.ReferenceIdeal.RunP.run (F := Ideal) m' ρ'⟩
    refine (θ_run Cert.KernelIdeal.defs _ _).mono (fun r h c => ⟨(h c).1.trans ?_, (h c).2⟩)
      (Cert.KernelIdeal.RunP.run_named (F := Ideal) m ρ)
    obtain ⟨a0, a1, a2, a3, a4, a5⟩ := hagree c
    exact result_eq m ρ m' c a0 a1 a2 a3 a4 a5⟩

end Cert.Proof

end
